-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x384 : Shape := ⟨2, ![128, 384]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg2 : IVec S800000 32) (main_v13 : IVec S_ 1) (main_v15 : IVec S800000 1) (main_c_5 : IVec S_ 1) : IVec S_ 1 :=
  let main_v16 : IVec S_ 1 := (fun x v => Host.reduce IntOp.andi x v reducesTo_S800000_S_d0 h_S_) main_v15 main_c_5
  let main_v17 : IVec S_ 1 := andi main_v13 main_v16
  let main_c_6 : IVec S_ 32 := constantI S_ 32 0#32
  let main_v18 : IVec S800000 32 := broadcastInDim S800000 ![] bcast_S_S800000 main_c_6
  let main_v19 : IVec S800000 1 := cmpi .sge main_arg2 main_v18
  let main_c_7 : IVec S_ 1 := constantI S_ 1 1#1
  let main_v20 : IVec S_ 1 := (fun x v => Host.reduce IntOp.andi x v reducesTo_S800000_S_d0 h_S_) main_v19 main_c_7
  let main_v21 : IVec S_ 1 := andi main_v17 main_v20
  main_v21

def fn {F : FTy → Type} [FloatOps F] (main_arg0 : FVec F S50000x128 .f32) (main_arg1 : IVec S800000 32) (main_arg2 : IVec S800000 32) (main_arg3 : FVec F S128x384 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x384 .f32 := Host.absf main_arg3
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S800000 32 := broadcastInDim S800000 ![] bcast_S_S800000 main_c_4
  let main_v15 : IVec S800000 1 := cmpi .sge main_arg1 main_v14
  let main_c_5 : IVec S_ 1 := constantI S_ 1 1#1
  fn_part1 (F := F) main_arg2 main_v13 main_v15 main_c_5
-- ==== Kernel.lean ====
abbrev S50000x128 : Shape := ⟨2, ![50000, 128]⟩
abbrev S800000 : Shape := ⟨1, ![800000]⟩
abbrev S128x384 : Shape := ⟨2, ![128, 384]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S384x128 : Shape := ⟨2, ![384, 128]⟩
abbrev S1x128 : Shape := ⟨2, ![1, 128]⟩
abbrev S2000x128 : Shape := ⟨2, ![2000, 128]⟩
abbrev S2000x1 : Shape := ⟨2, ![2000, 1]⟩
abbrev S128x128 : Shape := ⟨2, ![128, 128]⟩

abbrev nBuf : Space → Nat
  | .hbm => 102
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x384, .f32⟩
  | .hbm, ⟨4, _⟩ => ⟨S128, .f32⟩
  | .hbm, ⟨5, _⟩ => ⟨S50000x128, .bf16⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .bf16⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .bf16⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S_, .i32⟩
  | .hbm, ⟨35, _⟩ => ⟨S50000, .i32⟩
  | .hbm, ⟨36, _⟩ => ⟨S_, .i32⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S_, .i32⟩
  | .hbm, ⟨49, _⟩ => ⟨S800000, .i32⟩
  | .hbm, ⟨50, _⟩ => ⟨S50000, .i32⟩
  | .hbm, ⟨51, _⟩ => ⟨S50000, .f32⟩
  | .hbm, ⟨52, _⟩ => ⟨S50000x1, .f32⟩
  | .hbm, ⟨53, _⟩ => ⟨S_, .i32⟩
  | .hbm, ⟨54, _⟩ => ⟨S50000, .i32⟩
  | .hbm, ⟨55, _⟩ => ⟨S_, .i32⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S_, .i32⟩
  | .hbm, ⟨68, _⟩ => ⟨S800000, .i32⟩
  | .hbm, ⟨69, _⟩ => ⟨S50000, .i32⟩
  | .hbm, ⟨70, _⟩ => ⟨S50000, .f32⟩
  | .hbm, ⟨71, _⟩ => ⟨S50000x1, .f32⟩
  | .hbm, ⟨72, _⟩ => ⟨S_, .f32⟩
  | .hbm, ⟨73, _⟩ => ⟨S50000x1, .f32⟩
  | .hbm, ⟨74, _⟩ => ⟨S50000x1, .i1⟩
  | .hbm, ⟨75, _⟩ => ⟨S_, .f32⟩
  | .hbm, ⟨76, _⟩ => ⟨S50000x1, .f32⟩
  | .hbm, ⟨77, _⟩ => ⟨S50000x1, .f32⟩
  | .hbm, ⟨78, _⟩ => ⟨S_, .f32⟩
  | .hbm, ⟨79, _⟩ => ⟨S50000x1, .f32⟩
  | .hbm, ⟨80, _⟩ => ⟨S50000x1, .f32⟩
  | .hbm, ⟨81, _⟩ => ⟨S_, .f32⟩
  | .hbm, ⟨82, _⟩ => ⟨S_, .f32⟩
  | .hbm, ⟨83, _⟩ => ⟨S50000x1, .f32⟩
  | .hbm, ⟨84, _⟩ => ⟨S50000x1, .f32⟩
  | .hbm, ⟨85, _⟩ => ⟨S_, .f32⟩
  | .hbm, ⟨86, _⟩ => ⟨S50000x1, .f32⟩
  | .hbm, ⟨87, _⟩ => ⟨S50000x1, .i1⟩
  | .hbm, ⟨88, _⟩ => ⟨S_, .f32⟩
  | .hbm, ⟨89, _⟩ => ⟨S50000x1, .f32⟩
  | .hbm, ⟨90, _⟩ => ⟨S50000x1, .f32⟩
  | .hbm, ⟨91, _⟩ => ⟨S_, .f32⟩
  | .hbm, ⟨92, _⟩ => ⟨S50000x1, .f32⟩
  | .hbm, ⟨93, _⟩ => ⟨S50000x1, .f32⟩
  | .hbm, ⟨94, _⟩ => ⟨S_, .f32⟩
  | .hbm, ⟨95, _⟩ => ⟨S_, .f32⟩
  | .hbm, ⟨96, _⟩ => ⟨S50000x1, .f32⟩
  | .hbm, ⟨97, _⟩ => ⟨S50000x1, .f32⟩
  | .hbm, ⟨98, _⟩ => ⟨S384x128, .f32⟩
  | .hbm, ⟨99, _⟩ => ⟨S384x128, .bf16⟩
  | .hbm, ⟨100, _⟩ => ⟨S1x128, .f32⟩
  | .hbm, ⟨101, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S384x128, .bf16⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_c_5 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_c_10 : Ref sig .tc := ⟨.hbm, 55, rfl⟩
abbrev main_call1_v0 : Ref sig .tc := ⟨.hbm, 56, rfl⟩
abbrev main_call1_v1 : Ref sig .tc := ⟨.hbm, 57, rfl⟩
abbrev main_v36 : Ref sig .tc := ⟨.hbm, 58, rfl⟩
abbrev main_c_11 : Ref sig .tc := ⟨.hbm, 59, rfl⟩
abbrev main_v37 : Ref sig .tc := ⟨.hbm, 60, rfl⟩
abbrev main_v38 : Ref sig .tc := ⟨.hbm, 61, rfl⟩
abbrev main_c_12 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_13 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_v48 : Ref sig .tc := ⟨.hbm, 74, rfl⟩
abbrev main_cst_15 : Ref sig .tc := ⟨.hbm, 75, rfl⟩
abbrev main_v49 : Ref sig .tc := ⟨.hbm, 76, rfl⟩
abbrev main_v50 : Ref sig .tc := ⟨.hbm, 77, rfl⟩
abbrev main_cst_16 : Ref sig .tc := ⟨.hbm, 78, rfl⟩
abbrev main_v51 : Ref sig .tc := ⟨.hbm, 79, rfl⟩
abbrev main_v52 : Ref sig .tc := ⟨.hbm, 80, rfl⟩
abbrev main_cst_17 : Ref sig .tc := ⟨.hbm, 81, rfl⟩
abbrev main_call2_v0 : Ref sig .tc := ⟨.hbm, 82, rfl⟩
abbrev main_call2_v1 : Ref sig .tc := ⟨.hbm, 83, rfl⟩
abbrev main_v53 : Ref sig .tc := ⟨.hbm, 84, rfl⟩
abbrev main_cst_18 : Ref sig .tc := ⟨.hbm, 85, rfl⟩
abbrev main_v54 : Ref sig .tc := ⟨.hbm, 86, rfl⟩
abbrev main_v55 : Ref sig .tc := ⟨.hbm, 87, rfl⟩
abbrev main_cst_19 : Ref sig .tc := ⟨.hbm, 88, rfl⟩
abbrev main_v56 : Ref sig .tc := ⟨.hbm, 89, rfl⟩
abbrev main_v57 : Ref sig .tc := ⟨.hbm, 90, rfl⟩
abbrev main_cst_20 : Ref sig .tc := ⟨.hbm, 91, rfl⟩
abbrev main_v58 : Ref sig .tc := ⟨.hbm, 92, rfl⟩
abbrev main_v59 : Ref sig .tc := ⟨.hbm, 93, rfl⟩
abbrev main_cst_21 : Ref sig .tc := ⟨.hbm, 94, rfl⟩
abbrev main_call3_v0 : Ref sig .tc := ⟨.hbm, 95, rfl⟩
abbrev main_call3_v1 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  transposes_S128x384_S384x128_1_0 : S128x384.Transposes [1, 0] S384x128
  bcast_S128_S1x128_1 : S128.BroadcastsInDim S1x128 (![1] : Fin 1 → Fin S1x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S384x128_S128x128_0_0 : ∀ a, (![0, 0] : Fin 2 → Nat) a + S128x128.size a ≤ S384x128.size a
  h_S128x128 : 0 < S128x128.numel
  shapeCasts_S128x128_S128x128 : S128x128.ShapeCasts S128x128
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .bf16 = 32 ∨ (Rect.block (s := S384x128) S384x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v60) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v62) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v63) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v64) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x384 : Shape := ⟨2, ![128, 384]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x384 : Shape := ⟨2, ![50000, 384]⟩
abbrev S384x128 : Shape := ⟨2, ![384, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x384, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S50000x1, .i1⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S_, .f32⟩
  | .hbm, ⟨36, _⟩ => ⟨S50000x128, .i1⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S50000x1, .f32⟩
  | .hbm, ⟨59, _⟩ => ⟨S_, .f32⟩
  | .hbm, ⟨60, _⟩ => ⟨S50000x1, .f32⟩
  | .hbm, ⟨61, _⟩ => ⟨S50000x1, .i1⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S_, .f32⟩
  | .hbm, ⟨70, _⟩ => ⟨S50000x128, .i1⟩
  | .hbm, ⟨71, _⟩ => ⟨S50000x128, .f32⟩
  | .hbm, ⟨72, _⟩ => ⟨S50000x128, .f32⟩
  | .hbm, ⟨73, _⟩ => ⟨S50000x384, .f32⟩
  | .hbm, ⟨74, _⟩ => ⟨S384x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_cst_12 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_13 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  transposes_S128x384_S384x128_1_0 : S128x384.Transposes [1, 0] S384x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x384_S384x128_S50000x128_1_0_0_1_n_n_wf : DotDims.WF S50000x384 S384x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.Payload.lean ====
/-
  The kernel body's stored value at one entry of its 2000 x 128 block.
-/
import proofs.«430354_j83408264888595_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The dot's operand indices, one axis at a time -/

/-- The left operand's row is the output's row. -/
private theorem lhs_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction index. -/
private theorem lhs_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
/-- The right operand's row is the contraction index. -/
private theorem rhs_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
/-- The right operand's column is the output's column. -/
private theorem rhs_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 x 128 by 128 x 128 product into the zero block, read at (p, q): the row-by-column sum. -/
private theorem mm_apply (a : FVec Ideal S2000x128 .bf16) (b : FVec Ideal S128x128 .bf16) (p : Fin 2000) (q : Fin 128) :
    matmul (F := Ideal) dot_S2000x128_S128x128_S2000x128_1_0_0_1_n_n none a b (constant S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun ax => Fin.ext (by
    match ax with
    | ⟨0, _⟩ => exact lhs_0 _ _
    | ⟨1, _⟩ => exact (lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun ax => Fin.ext (by
    match ax with
    | ⟨0, _⟩ => exact (rhs_0 _ _).trans hk
    | ⟨1, _⟩ => exact rhs_1 _ _)
  rw [el, er]

/-! ## One column broadcast over many -/

/-- An `[a, 1]` array broadcast to `[a, b]` reads, at `(p, c)`, the operand's one column at row `p`. -/
private theorem broadcastTo_a1_ab_apply {α : Type} {a b : ℕ} (v : (⟨2, ![a, 1]⟩ : Shape).Idx → α)
    (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay_apply (x0 x1 : Vec Ideal S2000x128 .f32) (x2 : Vec Ideal S2000x1 .f32) (x3 : Vec Ideal S2000x128 .f32)
    (x4 : Vec Ideal S2000x1 .f32) (w0 w1 w2 : Vec Ideal S128x128 .bf16) (x6 : Vec Ideal S1x128 .f32)
    (p : Fin 2000) (q : Fin 128) :
    k0_pay1 (F := Ideal) x0 x1 x2 x3 x4 w0 w1 w2 x6 (ix2 p q)
      = ((∑ k : Fin 128, (x0 (ix2 p k) : EReal) * (w0 (ix2 k q) : EReal))
          + ∑ k : Fin 128, ((x1 (ix2 p k) : EReal) * (x2 (ix2 p (0 : Fin 1)) : EReal)) * (w1 (ix2 k q) : EReal))
        + (∑ k : Fin 128, ((x3 (ix2 p k) : EReal) * (x4 (ix2 p (0 : Fin 1)) : EReal)) * (w2 (ix2 k q) : EReal))
        + (x6 (ix2 (0 : Fin 1) q) : EReal) := by
  unfold k0_pay1
  simp only [shapeCast_self]
  rw [addf_apply, addf_apply, addf_apply, mm_apply, mm_apply, mm_apply]
  rw [broadcastTo_1b_ab_apply]
  simp only [truncf_apply, mulf_apply, broadcastTo_a1_ab_apply]

end Cert.KernelIdeal.Pay

end
-- ==== Proof.Blocks.lean ====
/-
  From the blocks to the whole array: what the region leaves in its result array, as ONE function of the
  seven arrays it is launched on.

  The grid has 25 points; point t works on rows 2000 t … 2000 t + 1999 of the four node arrays, of the two
  reciprocal-count columns and of the result, and on the whole of the transposed weight and of the bias row.
  Entry (r, c) of the result is therefore
    sum_k feat[r,k] wt[k,c] + sum_k (fs[r,k] fi[r,0]) wt[128+k,c] + sum_k (bs[r,k] bi[r,0]) wt[256+k,c] + b2[0,c].
-/
import proofs.«430354_j83408264888595_3_alg».proof.Proof.Gen.KernelIdeal.Value
import proofs.«430354_j83408264888595_3_alg».proof.Proof.Payload

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- Entry (r, c) of the region's result, from the seven arrays the region is launched on. -/
def outAt (feat fs : S50000x128.Idx → EReal) (fi : S50000x1.Idx → EReal) (bs : S50000x128.Idx → EReal)
    (bi : S50000x1.Idx → EReal) (wt : S384x128.Idx → EReal) (b2 : S1x128.Idx → EReal) : S50000x128.Idx → EReal := fun i =>
  ((∑ k : Fin 128, feat (ix2 (i 0) k) * wt (ix2 (⟨k.val, by omega⟩ : Fin 384) (i 1)))
      + ∑ k : Fin 128, (fs (ix2 (i 0) k) * fi (ix2 (i 0) (0 : Fin 1))) * wt (ix2 (⟨128 + k.val, by omega⟩ : Fin 384) (i 1)))
    + (∑ k : Fin 128, (bs (ix2 (i 0) k) * bi (ix2 (i 0) (0 : Fin 1))) * wt (ix2 (⟨256 + k.val, by omega⟩ : Fin 384) (i 1)))
    + b2 (ix2 (0 : Fin 1) (i 1))

/-! ## The grid's index maps -/

/-- The zero offsets, however they are spelt. -/
theorem zero_offsets : (![0, 0] : Fin 2 → Nat) = fun _ => 0 := funext fun a => by fin_cases a <;> rfl

/-- Decided over the 25 points: the three node arrays (features, forward and backward segment sums), the two
    reciprocal-count columns and the result are at block row t, column block 0; the weight and the bias row are at
    block (0, 0) throughout. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## One entry of a point's block -/

/-- Entry y of the body's stored block is entry i of outAt, as soon as the nine loaded pieces agree with the seven
    arrays along row (y 0) / (i 0) and column (y 1) / (i 1): the three products run over the whole row of the node
    blocks and the whole column of the weight's three row bands. -/
theorem entry_of_pieces (X0 X1 : S50000x128.Idx → EReal) (X2 : S50000x1.Idx → EReal) (X3 : S50000x128.Idx → EReal)
    (X4 : S50000x1.Idx → EReal) (X5 : S384x128.Idx → EReal) (X6 : S1x128.Idx → EReal)
    (b0 b1 : Vec Ideal S2000x128 .f32) (b2 : Vec Ideal S2000x1 .f32) (b3 : Vec Ideal S2000x128 .f32)
    (b4 : Vec Ideal S2000x1 .f32) (w0 w1 w2 : Vec Ideal S128x128 .bf16) (b6 : Vec Ideal S1x128 .f32)
    (y : S2000x128.Idx) (i : S50000x128.Idx)
    (h0 : ∀ k : Fin 128, (b0 (ix2 (y 0) k) : EReal) = X0 (ix2 (i 0) k))
    (h1 : ∀ k : Fin 128, (b1 (ix2 (y 0) k) : EReal) = X1 (ix2 (i 0) k))
    (h2 : (b2 (ix2 (y 0) (0 : Fin 1)) : EReal) = X2 (ix2 (i 0) (0 : Fin 1)))
    (h3 : ∀ k : Fin 128, (b3 (ix2 (y 0) k) : EReal) = X3 (ix2 (i 0) k))
    (h4 : (b4 (ix2 (y 0) (0 : Fin 1)) : EReal) = X4 (ix2 (i 0) (0 : Fin 1)))
    (hw0 : ∀ k : Fin 128, (w0 (ix2 k (y 1)) : EReal) = X5 (ix2 (⟨k.val, by omega⟩ : Fin 384) (i 1)))
    (hw1 : ∀ k : Fin 128, (w1 (ix2 k (y 1)) : EReal) = X5 (ix2 (⟨128 + k.val, by omega⟩ : Fin 384) (i 1)))
    (hw2 : ∀ k : Fin 128, (w2 (ix2 k (y 1)) : EReal) = X5 (ix2 (⟨256 + k.val, by omega⟩ : Fin 384) (i 1)))
    (h6 : (b6 (ix2 (0 : Fin 1) (y 1)) : EReal) = X6 (ix2 (0 : Fin 1) (i 1))) :
    k0_pay1 (F := Ideal) b0 b1 b2 b3 b4 w0 w1 w2 b6 y = outAt X0 X1 X2 X3 X4 X5 X6 i := by
  refine (congrArg (k0_pay1 (F := Ideal) b0 b1 b2 b3 b4 w0 w1 w2 b6) (eq_ix2 y)).trans ?_
  refine (Cert.KernelIdeal.Pay.pay_apply b0 b1 b2 b3 b4 w0 w1 w2 b6 (y 0) (y 1)).trans ?_
  unfold outAt
  simp only [h0, h1, h2, h3, h4, hw0, hw1, hw2, h6]

/-- outAt of equal arrays. -/
theorem outAt_congr {A0 B0 A1 B1 : S50000x128.Idx → EReal} {A2 B2 : S50000x1.Idx → EReal} {A3 B3 : S50000x128.Idx → EReal}
    {A4 B4 : S50000x1.Idx → EReal} {A5 B5 : S384x128.Idx → EReal} {A6 B6 : S1x128.Idx → EReal}
    (h0 : A0 = B0) (h1 : A1 = B1) (h2 : A2 = B2) (h3 : A3 = B3) (h4 : A4 = B4) (h5 : A5 = B5) (h6 : A6 = B6) :
    outAt A0 A1 A2 A3 A4 A5 A6 = outAt B0 B1 B2 B3 B4 B5 B6 := by
  subst h0 h1 h2 h3 h4 h5 h6; rfl

variable (m : (ℓ : Loc nD τ sig) → Buf (Elt Ideal) ℓ) (ρ : Dev nD → PrngReg)

/-! ## The blocks a point reads, as rows of the arrays

A block's coordinate on an axis is the block index times the block's size there plus the coordinate inside the block.
Each read is stated for any array X of the window's shape, at an entry y of the result's block and the entry i of
the result array it lands on (`hrow`, `hcol`: the result's block has the same block row, and column block 0). -/

/-- Row (y 0) of the node features' block at point t is row (i 0) of the array. -/
theorem feat_rows (t : Fin cfg0.N) (X : S50000x128.Idx → EReal) (y : S2000x128.Idx) (i : S50000x128.Idx)
    (hrow : (i 0).val = win0_7.index t (0 : Fin 2) * 2000 + 1 * (y 0).val) (k : Fin 128) :
    ((cfg0.win 0).blk t).view.read (Elt Ideal) X (ix2 (y 0) k) = X (ix2 (i 0) k) := by
  obtain ⟨e00, e01, e10, e11, e20, e21, e30, e31, e40, e41, e50, e51, e60, e61, e70, e71⟩ := block_indices t
  show X (((cfg0.win 0).blk t).view.emb (ix2 (y 0) k)) = X (ix2 (i 0) k)
  refine congrArg X (funext fun a => Fin.ext ?_)
  match a with
  | ⟨0, _⟩ =>
    show win0_0.index t (0 : Fin 2) * 2000 + 1 * (y 0).val = (i 0).val
    rw [hrow, e00, e70]
  | ⟨1, _⟩ =>
    show win0_0.index t (1 : Fin 2) * 128 + 1 * k.val = k.val
    rw [e01]; omega

/-- The same for the forward segment sums. -/
theorem fwd_sum_rows (t : Fin cfg0.N) (X : S50000x128.Idx → EReal) (y : S2000x128.Idx) (i : S50000x128.Idx)
    (hrow : (i 0).val = win0_7.index t (0 : Fin 2) * 2000 + 1 * (y 0).val) (k : Fin 128) :
    ((cfg0.win 1).blk t).view.read (Elt Ideal) X (ix2 (y 0) k) = X (ix2 (i 0) k) := by
  obtain ⟨e00, e01, e10, e11, e20, e21, e30, e31, e40, e41, e50, e51, e60, e61, e70, e71⟩ := block_indices t
  show X (((cfg0.win 1).blk t).view.emb (ix2 (y 0) k)) = X (ix2 (i 0) k)
  refine congrArg X (funext fun a => Fin.ext ?_)
  match a with
  | ⟨0, _⟩ =>
    show win0_1.index t (0 : Fin 2) * 2000 + 1 * (y 0).val = (i 0).val
    rw [hrow, e10, e70]
  | ⟨1, _⟩ =>
    show win0_1.index t (1 : Fin 2) * 128 + 1 * k.val = k.val
    rw [e11]; omega

/-- The same for the forward reciprocal counts, a single column. -/
theorem fwd_inv_rows (t : Fin cfg0.N) (X : S50000x1.Idx → EReal) (y : S2000x128.Idx) (i : S50000x128.Idx)
    (hrow : (i 0).val = win0_7.index t (0 : Fin 2) * 2000 + 1 * (y 0).val) :
    ((cfg0.win 2).blk t).view.read (Elt Ideal) X (ix2 (y 0) (0 : Fin 1)) = X (ix2 (i 0) (0 : Fin 1)) := by
  obtain ⟨e00, e01, e10, e11, e20, e21, e30, e31, e40, e41, e50, e51, e60, e61, e70, e71⟩ := block_indices t
  show X (((cfg0.win 2).blk t).view.emb (ix2 (y 0) (0 : Fin 1))) = X (ix2 (i 0) (0 : Fin 1))
  refine congrArg X (funext fun a => Fin.ext ?_)
  match a with
  | ⟨0, _⟩ =>
    show win0_2.index t (0 : Fin 2) * 2000 + 1 * (y 0).val = (i 0).val
    rw [hrow, e20, e70]
  | ⟨1, _⟩ =>
    show win0_2.index t (1 : Fin 2) * 1 + 1 * 0 = 0
    rw [e21]

/-- The same for the backward segment sums. -/
theorem bwd_sum_rows (t : Fin cfg0.N) (X : S50000x128.Idx → EReal) (y : S2000x128.Idx) (i : S50000x128.Idx)
    (hrow : (i 0).val = win0_7.index t (0 : Fin 2) * 2000 + 1 * (y 0).val) (k : Fin 128) :
    ((cfg0.win 3).blk t).view.read (Elt Ideal) X (ix2 (y 0) k) = X (ix2 (i 0) k) := by
  obtain ⟨e00, e01, e10, e11, e20, e21, e30, e31, e40, e41, e50, e51, e60, e61, e70, e71⟩ := block_indices t
  show X (((cfg0.win 3).blk t).view.emb (ix2 (y 0) k)) = X (ix2 (i 0) k)
  refine congrArg X (funext fun a => Fin.ext ?_)
  match a with
  | ⟨0, _⟩ =>
    show win0_3.index t (0 : Fin 2) * 2000 + 1 * (y 0).val = (i 0).val
    rw [hrow, e30, e70]
  | ⟨1, _⟩ =>
    show win0_3.index t (1 : Fin 2) * 128 + 1 * k.val = k.val
    rw [e31]; omega

/-- The same for the backward reciprocal counts, a single column. -/
theorem bwd_inv_rows (t : Fin cfg0.N) (X : S50000x1.Idx → EReal) (y : S2000x128.Idx) (i : S50000x128.Idx)
    (hrow : (i 0).val = win0_7.index t (0 : Fin 2) * 2000 + 1 * (y 0).val) :
    ((cfg0.win 4).blk t).view.read (Elt Ideal) X (ix2 (y 0) (0 : Fin 1)) = X (ix2 (i 0) (0 : Fin 1)) := by
  obtain ⟨e00, e01, e10, e11, e20, e21, e30, e31, e40, e41, e50, e51, e60, e61, e70, e71⟩ := block_indices t
  show X (((cfg0.win 4).blk t).view.emb (ix2 (y 0) (0 : Fin 1))) = X (ix2 (i 0) (0 : Fin 1))
  refine congrArg X (funext fun a => Fin.ext ?_)
  match a with
  | ⟨0, _⟩ =>
    show win0_4.index t (0 : Fin 2) * 2000 + 1 * (y 0).val = (i 0).val
    rw [hrow, e40, e70]
  | ⟨1, _⟩ =>
    show win0_4.index t (1 : Fin 2) * 1 + 1 * 0 = 0
    rw [e41]

/-- The weight's block is the whole transposed weight; its first band of 128 rows, read at (k, q), is row k. -/
theorem weight_band0 (t : Fin cfg0.N) (X : S384x128.Idx → EReal) (y : S2000x128.Idx) (i : S50000x128.Idx)
    (hcol : (i 1).val = win0_7.index t (1 : Fin 2) * 128 + 1 * (y 1).val) (k : Fin 128) :
    View.ld (((cfg0.win 5).blk t).view.read (Elt Ideal) X) r0_2 (ix2 k (y 1))
      = X (ix2 (⟨k.val, by omega⟩ : Fin 384) (i 1)) := by
  obtain ⟨e00, e01, e10, e11, e20, e21, e30, e31, e40, e41, e50, e51, e60, e61, e70, e71⟩ := block_indices t
  show X (((cfg0.win 5).blk t).view.emb (r0_2.idx (ix2 k (y 1)))) = X (ix2 (⟨k.val, by omega⟩ : Fin 384) (i 1))
  refine congrArg X (funext fun a => Fin.ext ?_)
  match a with
  | ⟨0, _⟩ =>
    show win0_5.index t (0 : Fin 2) * 384 + 1 * (0 + 1 * k.val) = k.val
    rw [e50]; omega
  | ⟨1, _⟩ =>
    show win0_5.index t (1 : Fin 2) * 128 + 1 * (0 + 1 * (y 1).val) = (i 1).val
    rw [hcol, e51, e71]; omega

/-- Its second band, read at (k, q), is row 128 + k. -/
theorem weight_band1 (t : Fin cfg0.N) (X : S384x128.Idx → EReal) (y : S2000x128.Idx) (i : S50000x128.Idx)
    (hcol : (i 1).val = win0_7.index t (1 : Fin 2) * 128 + 1 * (y 1).val) (k : Fin 128) :
    View.ld (((cfg0.win 5).blk t).view.read (Elt Ideal) X) r0_3 (ix2 k (y 1))
      = X (ix2 (⟨128 + k.val, by omega⟩ : Fin 384) (i 1)) := by
  obtain ⟨e00, e01, e10, e11, e20, e21, e30, e31, e40, e41, e50, e51, e60, e61, e70, e71⟩ := block_indices t
  show X (((cfg0.win 5).blk t).view.emb (r0_3.idx (ix2 k (y 1)))) = X (ix2 (⟨128 + k.val, by omega⟩ : Fin 384) (i 1))
  refine congrArg X (funext fun a => Fin.ext ?_)
  match a with
  | ⟨0, _⟩ =>
    show win0_5.index t (0 : Fin 2) * 384 + 1 * (128 + 1 * k.val) = 128 + k.val
    rw [e50]; omega
  | ⟨1, _⟩ =>
    show win0_5.index t (1 : Fin 2) * 128 + 1 * (0 + 1 * (y 1).val) = (i 1).val
    rw [hcol, e51, e71]; omega

/-- Its third band, read at (k, q), is row 256 + k. -/
theorem weight_band2 (t : Fin cfg0.N) (X : S384x128.Idx → EReal) (y : S2000x128.Idx) (i : S50000x128.Idx)
    (hcol : (i 1).val = win0_7.index t (1 : Fin 2) * 128 + 1 * (y 1).val) (k : Fin 128) :
    View.ld (((cfg0.win 5).blk t).view.read (Elt Ideal) X) r0_4 (ix2 k (y 1))
      = X (ix2 (⟨256 + k.val, by omega⟩ : Fin 384) (i 1)) := by
  obtain ⟨e00, e01, e10, e11, e20, e21, e30, e31, e40, e41, e50, e51, e60, e61, e70, e71⟩ := block_indices t
  show X (((cfg0.win 5).blk t).view.emb (r0_4.idx (ix2 k (y 1)))) = X (ix2 (⟨256 + k.val, by omega⟩ : Fin 384) (i 1))
  refine congrArg X (funext fun a => Fin.ext ?_)
  match a with
  | ⟨0, _⟩ =>
    show win0_5.index t (0 : Fin 2) * 384 + 1 * (256 + 1 * k.val) = 256 + k.val
    rw [e50]; omega
  | ⟨1, _⟩ =>
    show win0_5.index t (1 : Fin 2) * 128 + 1 * (0 + 1 * (y 1).val) = (i 1).val
    rw [hcol, e51, e71]; omega

/-- The bias block is the bias row: its entry (0, q) is the row's entry at the result's column. -/
theorem bias_row (t : Fin cfg0.N) (X : S1x128.Idx → EReal) (y : S2000x128.Idx) (i : S50000x128.Idx)
    (hcol : (i 1).val = win0_7.index t (1 : Fin 2) * 128 + 1 * (y 1).val) :
    ((cfg0.win 6).blk t).view.read (Elt Ideal) X (ix2 (0 : Fin 1) (y 1)) = X (ix2 (0 : Fin 1) (i 1)) := by
  obtain ⟨e00, e01, e10, e11, e20, e21, e30, e31, e40, e41, e50, e51, e60, e61, e70, e71⟩ := block_indices t
  show X (((cfg0.win 6).blk t).view.emb (ix2 (0 : Fin 1) (y 1))) = X (ix2 (0 : Fin 1) (i 1))
  refine congrArg X (funext fun a => Fin.ext ?_)
  match a with
  | ⟨0, _⟩ =>
    show win0_6.index t (0 : Fin 2) * 1 + 1 * 0 = 0
    rw [e60]
  | ⟨1, _⟩ =>
    show win0_6.index t (1 : Fin 2) * 128 + 1 * (y 1).val = (i 1).val
    rw [hcol, e61, e71]

/-! ## The seven arrays, by the windows' own names -/

/-- Window 0 stages the node features. -/
theorem array_feat (c : Dev nD) : V m c (Pipeline.arrRef spec0 0) = V m c main_arg0 := rfl

/-- Window 1 stages the forward segment sums. -/
theorem array_fwd_sum (c : Dev nD) : V m c (Pipeline.arrRef spec0 1) = V m c main_v18 := rfl

/-- Window 2 stages the forward reciprocal counts. -/
theorem array_fwd_inv (c : Dev nD) : V m c (Pipeline.arrRef spec0 2) = V m c main_v53 := rfl

/-- Window 3 stages the backward segment sums. -/
theorem array_bwd_sum (c : Dev nD) : V m c (Pipeline.arrRef spec0 3) = V m c main_v22 := rfl

/-- Window 4 stages the backward reciprocal counts. -/
theorem array_bwd_inv (c : Dev nD) : V m c (Pipeline.arrRef spec0 4) = V m c main_v60 := rfl

/-- Window 5 stages the transposed weight. -/
theorem array_weight (c : Dev nD) : V m c (Pipeline.arrRef spec0 5) = V m c main_v62 := rfl

/-- Window 6 stages the bias row. -/
theorem array_bias (c : Dev nD) : V m c (Pipeline.arrRef spec0 6) = V m c main_v63 := rfl

/-! ## What a point writes back -/

/-- What point t writes back is the body's stored block of the blocks it reads: the three node blocks, the two
    reciprocal-count columns, the three row bands of the weight and the bias row, each block read off its array as the
    region finds it. -/
theorem point_writes_payload (c : Dev nD) (t : Fin cfg0.N) :
    (dats m 0 c).flushed 7 t
      = (cfg0.win 7).cut (grid0.coords t)
        (k0_pay1 (F := Ideal) (((cfg0.win 0).blk t).view.read (Elt Ideal) (V m c (Pipeline.arrRef spec0 0))) (((cfg0.win 1).blk t).view.read (Elt Ideal) (V m c (Pipeline.arrRef spec0 1))) (((cfg0.win 2).blk t).view.read (Elt Ideal) (V m c (Pipeline.arrRef spec0 2))) (((cfg0.win 3).blk t).view.read (Elt Ideal) (V m c (Pipeline.arrRef spec0 3))) (((cfg0.win 4).blk t).view.read (Elt Ideal) (V m c (Pipeline.arrRef spec0 4)))
          (View.ld (((cfg0.win 5).blk t).view.read (Elt Ideal) (V m c (Pipeline.arrRef spec0 5))) r0_2) (View.ld (((cfg0.win 5).blk t).view.read (Elt Ideal) (V m c (Pipeline.arrRef spec0 5))) r0_3) (View.ld (((cfg0.win 5).blk t).view.read (Elt Ideal) (V m c (Pipeline.arrRef spec0 5))) r0_4) (((cfg0.win 6).blk t).view.read (Elt Ideal) (V m c (Pipeline.arrRef spec0 6)))) := by
  rw [Value.flushed7]
  unfold out0_7
  rw [View.canon_unit_zero zero_offsets]
  simp only [View.ld_unit_zero (S := S2000x128) zero_offsets, View.ld_unit_zero (S := S2000x1) zero_offsets,
    View.ld_unit_zero (S := S1x128) zero_offsets]
  unfold iblk
  rfl

/-- Point t writes back rows 2000 t … 2000 t + 1999 of outAt of the seven arrays as the region finds them, each array
    under its window's own name. -/
theorem point_writes_rows (c : Dev nD) (t : Fin cfg0.N) :
    (dats m 0 c).flushed 7 t
      = ((cfg0.win 7).blk t).view.read (Elt Ideal)
          (outAt (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6))) := by
  refine (point_writes_payload m c t).trans ?_
  funext j
  have hrow : ((((cfg0.win 7).blk t).view.emb j) 0).val
      = win0_7.index t (0 : Fin 2) * 2000 + 1 * (((cfg0.win 7).xinj (grid0.coords t) j) 0).val := rfl
  have hcol : ((((cfg0.win 7).blk t).view.emb j) 1).val
      = win0_7.index t (1 : Fin 2) * 128 + 1 * (((cfg0.win 7).xinj (grid0.coords t) j) 1).val := rfl
  exact entry_of_pieces (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6))
    (((cfg0.win 0).blk t).view.read (Elt Ideal) (V m c (Pipeline.arrRef spec0 0))) (((cfg0.win 1).blk t).view.read (Elt Ideal) (V m c (Pipeline.arrRef spec0 1))) (((cfg0.win 2).blk t).view.read (Elt Ideal) (V m c (Pipeline.arrRef spec0 2))) (((cfg0.win 3).blk t).view.read (Elt Ideal) (V m c (Pipeline.arrRef spec0 3))) (((cfg0.win 4).blk t).view.read (Elt Ideal) (V m c (Pipeline.arrRef spec0 4)))
    (View.ld (((cfg0.win 5).blk t).view.read (Elt Ideal) (V m c (Pipeline.arrRef spec0 5))) r0_2) (View.ld (((cfg0.win 5).blk t).view.read (Elt Ideal) (V m c (Pipeline.arrRef spec0 5))) r0_3) (View.ld (((cfg0.win 5).blk t).view.read (Elt Ideal) (V m c (Pipeline.arrRef spec0 5))) r0_4) (((cfg0.win 6).blk t).view.read (Elt Ideal) (V m c (Pipeline.arrRef spec0 6)))
    ((cfg0.win 7).xinj (grid0.coords t) j) (((cfg0.win 7).blk t).view.emb j)
    (fun k => feat_rows t _ _ _ hrow k) (fun k => fwd_sum_rows t _ _ _ hrow k) (fwd_inv_rows t _ _ _ hrow)
    (fun k => bwd_sum_rows t _ _ _ hrow k) (bwd_inv_rows t _ _ _ hrow)
    (fun k => weight_band0 t _ _ _ hcol k) (fun k => weight_band1 t _ _ _ hcol k) (fun k => weight_band2 t _ _ _ hcol k)
    (bias_row t _ _ _ hcol)

/-! ## The 25 blocks of 2000 rows cover the 50000 rows -/

/-- An entry of the result array is in point t's block iff each coordinate is in the block's range on its axis. -/
theorem mem_rows_of_point (t : Fin cfg0.N) (i : S50000x128.Idx) :
    i ∈ ((cfg0.win 7).blk t).view.set
      ↔ ∀ a : Fin 2, win0_7.index t a * S2000x128.size a ≤ (i a).val ∧ (i a).val < win0_7.index t a * S2000x128.size a + S2000x128.size a := by
  show i ∈ ((View.whole main_v64).slice (win0_7.rect t)).set ↔ _
  rw [View.set_slice_whole, Rect.mem_set_unit]
  exact Iff.rfl

/-- Row r of the result is written by point r / 2000. -/
theorem rows_covered (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := by decide
  have ht : (i 0).val / 2000 < cfg0.N := by rw [hN]; omega
  obtain ⟨-, -, -, -, -, -, -, -, -, -, -, -, -, -, e70, e71⟩ := block_indices ⟨(i 0).val / 2000, ht⟩
  refine ⟨⟨(i 0).val / 2000, ht⟩, flush0_7 _, ?_⟩
  rw [mem_rows_of_point]
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    rw [e70]
    show (i 0).val / 2000 * 2000 ≤ (i 0).val ∧ (i 0).val < (i 0).val / 2000 * 2000 + 2000
    omega
  | ⟨1, _⟩ =>
    show win0_7.index ⟨(i 0).val / 2000, ht⟩ (1 : Fin 2) * 128 ≤ (i 1).val
      ∧ (i 1).val < win0_7.index ⟨(i 0).val / 2000, ht⟩ (1 : Fin 2) * 128 + 128
    rw [e71]
    omega

/-- The result array after the run. -/
theorem final (c : Dev nD) :
    (dats m 0 c).arrAt 7 cfg0.N
      = outAt (V m c main_arg0) (V m c main_v18) (V m c main_v53) (V m c main_v22) (V m c main_v60) (V m c main_v62) (V m c main_v63) := by
  exact ((dats m 0 c).arrAt_eq_of_cover 7
    (outAt (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)))
    (fun t _ => point_writes_rows m c t) rows_covered).trans
    (outAt_congr (array_feat m c) (array_fwd_sum m c) (array_fwd_inv m c) (array_bwd_sum m c) (array_bwd_inv m c)
      (array_weight m c) (array_bias m c))

/-- The run, with the result array named. -/
theorem run : θ_run defs (onTc (τ := τ) (main (F := Ideal))) ⟨m, fun _ => 0, ρ⟩ fun r => ∀ c : Dev nD,
      r.2.mem ((c : Thread nD τ).loc main_v64)
        = outAt (V m c main_arg0) (V m c main_v18) (V m c main_v53) (V m c main_v22) (V m c main_v60) (V m c main_v62) (V m c main_v63)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.KHost.lean ====
/-
  The arrays the kernel's region is launched on, as functions of the program's arguments.

  Before the region the host computes, for each direction of the graph: the per-node sum of the
  gathered feature rows (a gather by one endpoint array, a scatter-add by the other), the per-node
  edge count (an integer scatter-add of ones by the endpoint array, clipped below at zero, then
  converted to a float) and from it the guarded reciprocal 'one over the count where the count is
  positive, zero elsewhere'; and the transposed weight and the bias as a row.
-/
import proofs.«430354_j83408264888595_3_alg».proof.Proof.Gen.KernelIdeal.Frame
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo

variable {F : FTy → Type} [FloatOps F]

/-- An index array with Python's wrap of negative entries (x < 0 ↦ x + 50000), as a column. -/
def wrapIdx (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The feature rows the edges' endpoints `x` name (gathered in the narrow format, widened again). -/
def msgs (feat : FVec F S50000x128 .f32) (x : IVec S800000 32) : FVec F S800000x128 .f32 :=
  extf .f32 (Host.gather gather_S50000x128_S800000x1_S800000x128_1_0_n_n_0_1_1128 (truncf .bf16 feat bitsLt_bf16_f32) (wrapIdx x)) bitsLt_bf16_f32

/-- Per node, the sum of the rows gathered by `x` over the edges whose other endpoint `y` is that node. -/
def segSum (feat : FVec F S50000x128 .f32) (x y : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 y) (msgs feat x)

/-- An index array clipped below at zero. -/
def clip0 (x : IVec S800000 32) : IVec S800000 32 :=
  maxsi (broadcastInDim S800000 ![] bcast_S_S800000 (id (constantI S_ 32 0#32))) x

/-- Per node, how many edges have it as their endpoint in `x` (an integer count). -/
def degI (x : IVec S800000 32) : IVec S50000 32 :=
  Host.scatter scatter_S50000_S800000x1_S800000_n_0_0_1 IntOp.addi
    (broadcastInDim S50000 ![] bcast_S_S50000 (constantI S_ 32 0#32)) (wrapIdx (clip0 x))
    (broadcastInDim S800000 ![] bcast_S_S800000 (constantI S_ 32 1#32))

/-- The count as a float column. -/
def degF (x : IVec S800000 32) : FVec F S50000x1 .f32 :=
  broadcastInDim S50000x1 ![0] bcast_S50000_S50000x1_0 (sitofp (F := F) .f32 (degI x))

/-- The guarded reciprocal of the count: 1 / max(count, 1) where the count is positive, 0 elsewhere. -/
def invDeg (x : IVec S800000 32) : FVec F S50000x1 .f32 :=
  select (cmpf (F := F) .ogt (degF (F := F) x) (broadcastInDim S50000x1 ![] bcast_S_S50000x1 (constant S_ .f32 0x00000000#32)))
    (Host.divf (broadcastInDim S50000x1 ![] bcast_S_S50000x1 (constant S_ .f32 0x3F800000#32))
      (maximumf (degF (F := F) x) (broadcastInDim S50000x1 ![] bcast_S_S50000x1 (constant S_ .f32 0x3F800000#32))))
    (broadcastInDim S50000x1 ![] bcast_S_S50000x1 (id (constant S_ .f32 0x00000000#32)))

/-- The weight transposed (and narrowed). -/
def wT (W : FVec F S128x384 .f32) : FVec F S384x128 .bf16 :=
  truncf .bf16 (transpose S384x128 [1, 0] W transposes_S128x384_S384x128_1_0) bitsLt_bf16_f32

/-- The bias as a row. -/
def bRow (b : FVec F S128 .f32) : FVec F S1x128 .f32 := broadcastInDim S1x128 ![1] bcast_S128_S1x128_1 b

variable (m : (ℓ : Loc nD τ sig) → Buf (Elt F) ℓ)

set_option maxHeartbeats 16000000 in
theorem V_fsum (c : Dev nD) : (V m c main_v18 : S50000x128.Idx → Elt F .f32)
    = segSum (m ((c : Thread nD τ).loc main_arg0)) (m ((c : Thread nD τ).loc main_arg1)) (m ((c : Thread nD τ).loc main_arg2)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 16000000 in
theorem V_bsum (c : Dev nD) : (V m c main_v22 : S50000x128.Idx → Elt F .f32)
    = segSum (m ((c : Thread nD τ).loc main_arg0)) (m ((c : Thread nD τ).loc main_arg2)) (m ((c : Thread nD τ).loc main_arg1)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 16000000 in
theorem V_finv (c : Dev nD) : (V m c main_v53 : S50000x1.Idx → Elt F .f32)
    = invDeg (F := F) (m ((c : Thread nD τ).loc main_arg2)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 16000000 in
theorem V_binv (c : Dev nD) : (V m c main_v60 : S50000x1.Idx → Elt F .f32)
    = invDeg (F := F) (m ((c : Thread nD τ).loc main_arg1)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 16000000 in
theorem V_wt (c : Dev nD) : (V m c main_v62 : S384x128.Idx → Elt F .bf16)
    = wT (m ((c : Thread nD τ).loc main_arg3)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 16000000 in
theorem V_brow (c : Dev nD) : (V m c main_v63 : S1x128.Idx → Elt F .f32)
    = bRow (m ((c : Thread nD τ).loc main_arg4)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

end Cert.KernelIdeal.Glue

end
-- ==== Proof.RefAt.lean ====
/-
  The reference's result at one entry (r, c), read down to its two segment sums and two degree counts.
-/
import proofs.«430354_j83408264888595_3_alg».proof.Proof.RefRead

noncomputable section

namespace Cert.ReferenceIdeal.RefAt

open Cert.ReferenceIdeal Cert.ReferenceIdeal.Gen Cert.ReferenceIdeal.ReadP Idealize.ShloMosaic Idealize.ShloMosaic.ValueIdx

/-- The reference's mean of a segment: the sum over the count where the count is positive, zero elsewhere
    (the scalar form of jnp.where(deg > 0, s / maximum(deg, 1), 0)). -/
def refMean (s d : EReal) : EReal :=
  Scalar.select (FloatOps.cmpf (F := Ideal) (φ := .f32) .ogt d (FloatOps.ofBits .f32 0x00000000#32))
    (FloatOps.hostDivf (F := Ideal) (φ := .f32) s (FloatOps.maximumf (F := Ideal) (φ := .f32) d (FloatOps.ofBits .f32 0x3F800000#32)))
    (FloatOps.ofBits (F := Ideal) .f32 0x00000000#32)

/-- The row broadcast then the column broadcast of the compare read entry (r, k) at row r of the count. -/
private theorem idx_cmp0 (r : Fin 50000) (k : Fin 128) :
    idx_main_v14 (idx_main_call0_v1 (ix2 r k)) = ix1 r :=
  funext fun a => Fin.ext (by match a with | ⟨0, _⟩ => rfl)

/-- The two broadcasts of the maximum read entry (r, k) at row r of the count. -/
private theorem idx_max0 (r : Fin 50000) (k : Fin 128) :
    idx_main_v19 (idx_main_v20 (ix2 r k)) = ix1 r :=
  funext fun a => Fin.ext (by match a with | ⟨0, _⟩ => rfl)

private theorem idx_cmp1 (r : Fin 50000) (k : Fin 128) :
    idx_main_v37 (idx_main_call1_v1 (ix2 r k)) = ix1 r :=
  funext fun a => Fin.ext (by match a with | ⟨0, _⟩ => rfl)

private theorem idx_max1 (r : Fin 50000) (k : Fin 128) :
    idx_main_v42 (idx_main_v43 (ix2 r k)) = ix1 r :=
  funext fun a => Fin.ext (by match a with | ⟨0, _⟩ => rfl)

theorem fwd_mean_apply (x0 : (⟨S50000x128, .f32⟩ : BufTy).Contents (Elt Ideal)) (x1 x2 : (⟨S800000, .i32⟩ : BufTy).Contents (Elt Ideal))
    (r : Fin 50000) (k : Fin 128) :
    val_main_v22 (F := Ideal) x0 x1 x2 (ix2 r k)
      = refMean (val_main_v9 (F := Ideal) x0 x1 x2 (ix2 r k)) (val_main_v13 (F := Ideal) x2 (ix1 r)) := by
  rw [val_main_v22_apply, val_main_call0_v1_apply, val_main_v16_apply, val_main_v14_apply, val_main_v15_apply,
    val_main_cst_3_apply, val_main_v21_apply, val_main_v20_apply, val_main_v19_apply, val_main_v18_apply,
    val_main_v17_apply, val_main_cst_4_apply, val_main_call0_v2_apply, val_main_call0_v0_apply, val_main_cst_5_apply,
    idx_cmp0, idx_max0]
  rfl

theorem bwd_mean_apply (x0 : (⟨S50000x128, .f32⟩ : BufTy).Contents (Elt Ideal)) (x1 x2 : (⟨S800000, .i32⟩ : BufTy).Contents (Elt Ideal))
    (r : Fin 50000) (k : Fin 128) :
    val_main_v45 (F := Ideal) x0 x1 x2 (ix2 r k)
      = refMean (val_main_v32 (F := Ideal) x0 x1 x2 (ix2 r k)) (val_main_v36 (F := Ideal) x1 (ix1 r)) := by
  rw [val_main_v45_apply, val_main_call1_v1_apply, val_main_v39_apply, val_main_v37_apply, val_main_v38_apply,
    val_main_cst_11_apply, val_main_v44_apply, val_main_v43_apply, val_main_v42_apply, val_main_v41_apply,
    val_main_v40_apply, val_main_cst_12_apply, val_main_call1_v2_apply, val_main_call1_v0_apply, val_main_cst_13_apply,
    idx_cmp1, idx_max1]
  rfl

/-- A sum over 384 terms is the sum of its three consecutive runs of 128. -/
private theorem sum_three {M : Type} [AddCommMonoid M] (f : Fin 384 → M) :
    ∑ k : Fin 384, f k
      = (∑ k : Fin 128, f ⟨k.val, by omega⟩ + ∑ k : Fin 128, f ⟨128 + k.val, by omega⟩)
        + ∑ k : Fin 128, f ⟨256 + k.val, by omega⟩ := by
  change ∑ k : Fin (128 + 128 + 128), f k = _
  rw [Fin.sum_univ_add, Fin.sum_univ_add]
  rfl

/-- The concatenated row's first 128 columns are the input's. -/
private theorem cat_piece0 (x0 : (⟨S50000x128, .f32⟩ : BufTy).Contents (Elt Ideal)) (x1 x2 : (⟨S800000, .i32⟩ : BufTy).Contents (Elt Ideal))
    (r : Fin 50000) (k : Fin 128) :
    val_main_v46 (F := Ideal) x0 x1 x2 (ix2 r (⟨k.val, by omega⟩ : Fin 384)) = x0 (ix2 r k) := by
  unfold val_main_v46
  refine concatenate_apply_piece (1 : Fin S50000x384.rank) _ _ _ 0 (by show 0 < 3; omega) S50000x128 x0 rfl rfl 0 rfl
    (ix2 r k) (fun b hb => ?_) ?_
  · match b, hb with
    | ⟨0, _⟩, _ => rfl
    | ⟨1, _⟩, hb => exact absurd rfl hb
  · show 0 + k.val = k.val
    omega

/-- Its next 128 columns are the forward mean's. -/
private theorem cat_piece1 (x0 : (⟨S50000x128, .f32⟩ : BufTy).Contents (Elt Ideal)) (x1 x2 : (⟨S800000, .i32⟩ : BufTy).Contents (Elt Ideal))
    (r : Fin 50000) (k : Fin 128) :
    val_main_v46 (F := Ideal) x0 x1 x2 (ix2 r (⟨128 + k.val, by omega⟩ : Fin 384)) = val_main_v22 (F := Ideal) x0 x1 x2 (ix2 r k) := by
  unfold val_main_v46
  refine concatenate_apply_piece (1 : Fin S50000x384.rank) _ _ _ 1 (by show 1 < 3; omega) S50000x128 (val_main_v22 (F := Ideal) x0 x1 x2) rfl rfl 128 rfl
    (ix2 r k) (fun b hb => ?_) ?_
  · match b, hb with
    | ⟨0, _⟩, _ => rfl
    | ⟨1, _⟩, hb => exact absurd rfl hb
  · show 128 + k.val = 128 + k.val
    rfl

/-- Its last 128 columns are the backward mean's. -/
private theorem cat_piece2 (x0 : (⟨S50000x128, .f32⟩ : BufTy).Contents (Elt Ideal)) (x1 x2 : (⟨S800000, .i32⟩ : BufTy).Contents (Elt Ideal))
    (r : Fin 50000) (k : Fin 128) :
    val_main_v46 (F := Ideal) x0 x1 x2 (ix2 r (⟨256 + k.val, by omega⟩ : Fin 384)) = val_main_v45 (F := Ideal) x0 x1 x2 (ix2 r k) := by
  unfold val_main_v46
  refine concatenate_apply_piece (1 : Fin S50000x384.rank) _ _ _ 2 (by show 2 < 3; omega) S50000x128 (val_main_v45 (F := Ideal) x0 x1 x2) rfl rfl 256 rfl
    (ix2 r k) (fun b hb => ?_) ?_
  · match b, hb with
    | ⟨0, _⟩, _ => rfl
    | ⟨1, _⟩, hb => exact absurd rfl hb
  · show 256 + k.val = 256 + k.val
    rfl

/-- The contraction's left operand at entry (r, c) and position k is the concatenated row r at column k. -/
private theorem lidx_eq (r : Fin 50000) (c : Fin 128) (k : Fin 384) : lidx_main_v48 (ix2 r c) k = ix2 r k :=
  funext fun a => Fin.ext (by match a with | ⟨0, _⟩ => rfl | ⟨1, _⟩ => rfl)

/-- Its right operand, the transposed weight, is the weight's row c at column k. -/
private theorem ridx_eq (r : Fin 50000) (c : Fin 128) (k : Fin 384) : idx_main_v47 (ridx_main_v48 (ix2 r c) k) = ix2 c k :=
  funext fun a => Fin.ext (by match a with | ⟨0, _⟩ => rfl | ⟨1, _⟩ => rfl)

/-- The two broadcasts of the bias read entry (r, c) at c. -/
private theorem bias_idx (r : Fin 50000) (c : Fin 128) : idx_main_v49 (idx_main_v50 (ix2 r c)) = ix1 c :=
  funext fun a => Fin.ext (by match a with | ⟨0, _⟩ => rfl)

/-- The 384-term contraction over the concatenated row splits into the three 128-term pieces. -/
theorem result_apply (x0 : (⟨S50000x128, .f32⟩ : BufTy).Contents (Elt Ideal)) (x1 x2 : (⟨S800000, .i32⟩ : BufTy).Contents (Elt Ideal))
    (x3 : (⟨S128x384, .f32⟩ : BufTy).Contents (Elt Ideal)) (x4 : (⟨S128, .f32⟩ : BufTy).Contents (Elt Ideal))
    (r : Fin 50000) (c : Fin 128) :
    val_main_v51 (F := Ideal) x0 x1 x2 x3 x4 (ix2 r c)
      = ((∑ k : Fin 128, (x0 (ix2 r k) : EReal) * (x3 (ix2 c (⟨k.val, by omega⟩ : Fin 384)) : EReal))
          + ∑ k : Fin 128, (val_main_v22 (F := Ideal) x0 x1 x2 (ix2 r k) : EReal) * (x3 (ix2 c (⟨128 + k.val, by omega⟩ : Fin 384)) : EReal))
        + (∑ k : Fin 128, (val_main_v45 (F := Ideal) x0 x1 x2 (ix2 r k) : EReal) * (x3 (ix2 c (⟨256 + k.val, by omega⟩ : Fin 384)) : EReal))
        + (x4 (ix1 c) : EReal) := by
  rw [val_main_v51_apply, val_main_v50_apply, val_main_v49_apply, bias_idx, val_main_v48_apply]
  have hterm : ∀ k : Fin 384, val_main_v46 (F := Ideal) x0 x1 x2 (lidx_main_v48 (ix2 r c) k) * val_main_v47 (F := Ideal) x3 (ridx_main_v48 (ix2 r c) k)
      = val_main_v46 (F := Ideal) x0 x1 x2 (ix2 r k) * x3 (ix2 c k) := fun k => by
    rw [val_main_v47_apply, lidx_eq, ridx_eq]
  rw [Finset.sum_congr rfl fun k _ => hterm k,
    sum_three fun k : Fin 384 => val_main_v46 (F := Ideal) x0 x1 x2 (ix2 r k) * x3 (ix2 c k)]
  simp only [cat_piece0, cat_piece1, cat_piece2]
  rfl

end Cert.ReferenceIdeal.RefAt

end
-- ==== Proof.LibIntScatterCount.lean ====
/-
  An integer `stablehlo.scatter` whose body is a wrapping add, read at an index, for any sizes.

  The scatter is a left fold over the update indices in row-major order, each step adding its update
  to the element its result index names and dropping an update whose index leaves the operand. Since
  the wrapping sum is commutative, the fold's value at `i` is the operand's element plus the sum of
  the updates that land on `i` (`scatter_addi_apply`). With every update the same word `c` that sum is
  `c` taken as many times as there are updates landing on `i` (`scatter_addi_const`), and with a zero
  operand and `c = 1` the word read signed is that count itself, as long as twice the number of updates
  fits in the word (`toInt_scatter_addi_ones`). At the extended reals a float scatter-add of ones into
  zeros is the same count (`hostScatterAdd_ones`): `jnp.bincount` and a `segment_sum` of ones agree
  wherever their index words agree (`sitofp_count_eq_hostScatterAdd_ones`).
-/
import Idealize.ShloMosaic.PureOps
import Idealize.ShloMosaic.PureOps.Ideal
import Mathlib.Data.BitVec
import Mathlib.Algebra.BigOperators.Fin

noncomputable section

namespace ScatterCount

open Idealize.ShloMosaic

variable {s si u : Shape} {w w' : Nat}

/-- The fold at an index: the operand there plus every update whose result index is that index. -/
theorem scatter_addi_apply (d : ScatterDims s si u) (x : s.Idx → BitVec w) (idx : IVec si w')
    (upd : u.Idx → BitVec w) (i : s.Idx) :
    Host.scatter d IntOp.addi x idx upd i
      = x i + ∑ j ∈ Finset.univ.filter (fun j => d.resultIdx? j idx = some i), upd j := by
  rw [Finset.sum_filter, ← Equiv.sum_comp u.rowMajor.symm, Fin.sum_univ_def]
  unfold Host.scatter
  generalize List.finRange u.numel = l
  induction l generalizing x with
  | nil => simp
  | cons a l ih =>
    rw [List.foldl_cons, ih, List.map_cons, List.sum_cons, ← add_assoc]
    congr 1
    cases h : d.resultIdx? (u.rowMajor.symm a) idx with
    | none => simp
    | some i0 =>
      by_cases hi : i = i0
      · subst hi; simp [IntOp.addi]
      · have hne : ¬ (some i0 = some i) := fun h => hi (Option.some.inj h).symm
        simp [hi, hne]

/-- How many updates land on `i`. -/
def hits (d : ScatterDims s si u) (idx : IVec si w') (i : s.Idx) : ℕ :=
  (Finset.univ.filter (fun j : u.Idx => d.resultIdx? j idx = some i)).card

theorem hits_le (d : ScatterDims s si u) (idx : IVec si w') (i : s.Idx) : hits d idx i ≤ u.numel := by
  unfold hits
  refine (Finset.card_le_univ _).trans (le_of_eq ?_)
  rw [Fintype.card_congr u.rowMajor, Fintype.card_fin]

/-- Equal updates: the operand plus the update taken once per landing. -/
theorem scatter_addi_const (d : ScatterDims s si u) (x : s.Idx → BitVec w) (idx : IVec si w') (c : BitVec w)
    (i : s.Idx) :
    Host.scatter d IntOp.addi x idx (fun _ => c) i = x i + hits d idx i • c := by
  rw [scatter_addi_apply, Finset.sum_const]; rfl

/-- Ones into zeros, read signed: the count, when twice the number of updates fits in the word. -/
theorem toInt_scatter_addi_ones (d : ScatterDims s si u) (idx : IVec si w') (hN : 2 * u.numel < 2 ^ w) (i : s.Idx) :
    (Host.scatter d IntOp.addi (fun _ => (0 : BitVec w)) idx (fun _ => (1 : BitVec w)) i).toInt = (hits d idx i : ℤ) := by
  have hle := hits_le d idx i
  rw [scatter_addi_const, zero_add, nsmul_eq_mul, mul_one, BitVec.natCast_eq_ofNat]
  have hlt : hits d idx i < 2 ^ w := by omega
  rw [BitVec.toInt_eq_toNat_of_lt (by rw [BitVec.toNat_ofNat, Nat.mod_eq_of_lt hlt]; omega), BitVec.toNat_ofNat,
    Nat.mod_eq_of_lt hlt]

/-- At the extended reals a float scatter-add of ones into zeros is the same count. -/
theorem hostScatterAdd_ones (d : ScatterDims s si u) (idx : IVec si w') (i : s.Idx) :
    Ideal.hostScatterAdd d (fun _ => (0 : EReal)) idx (fun _ => (1 : EReal)) i = (hits d idx i : EReal) := by
  unfold Ideal.hostScatterAdd hits
  rw [zero_add, Finset.sum_const, nsmul_one]

/-- The integer count converted to a float is the float count. -/
theorem sitofp_count_eq_hostScatterAdd_ones (d : ScatterDims s si u) (idx : IVec si w') (hN : 2 * u.numel < 2 ^ w)
    (i : s.Idx) :
    (((Host.scatter d IntOp.addi (fun _ => (0 : BitVec w)) idx (fun _ => (1 : BitVec w)) i).toInt : ℝ) : EReal)
      = Ideal.hostScatterAdd d (fun _ => (0 : EReal)) idx (fun _ => (1 : EReal)) i := by
  rw [toInt_scatter_addi_ones d idx hN, hostScatterAdd_ones, Int.cast_natCast]; rfl

end ScatterCount

end
-- ==== Proof.Bridge.lean ====
/-
  The kernel's host-side arrays against the reference's stages, and the two results entry by entry.
-/
import proofs.«430354_j83408264888595_3_alg».proof.Proof.KHost
import proofs.«430354_j83408264888595_3_alg».proof.Proof.RefAt
import proofs.«430354_j83408264888595_3_alg».proof.Proof.LibIntScatterCount
import Idealize.ShloMosaic.PureOps.IdealRules
import Idealize.ShloMosaic.PureOps.Ideal.Laws
import Idealize.ShloMosaic.Lib.Pipeline.Value
import Idealize.ShloMosaic.Lib.ValueIdx

set_option maxRecDepth 16384

noncomputable section

namespace Cert.Bridge

open Idealize.ShloMosaic Idealize.ShloMosaic.ValueIdx
open Cert.ReferenceIdeal.ReadP Cert.ReferenceIdeal.RefAt
open Cert.KernelIdeal Cert.KernelIdeal.Gen

/-- The segment sums are the same arrays: the narrowing and widening around the gather are the identity here. -/
theorem segSum_fwd (feat : FVec Ideal Cert.KernelIdeal.S50000x128 .f32) (src dst : IVec Cert.KernelIdeal.S800000 32) :
    Cert.KernelIdeal.Glue.segSum (F := Ideal) feat src dst = val_main_v9 (F := Ideal) feat src dst := rfl

theorem segSum_bwd (feat : FVec Ideal Cert.KernelIdeal.S50000x128 .f32) (src dst : IVec Cert.KernelIdeal.S800000 32) :
    Cert.KernelIdeal.Glue.segSum (F := Ideal) feat dst src = val_main_v32 (F := Ideal) feat src dst := rfl

theorem one_f32 : Ideal.ofBits .f32 0x3F800000#32 = 1 := IdealRules.sign_bit.ideal_onePat .f32

/-- The reference's per-node count, as the float scatter-add of ones into zeros by the array's own column. -/
theorem v13_eq (x : IVec S800000 32) :
    val_main_v13 (F := Ideal) x
      = Ideal.hostScatterAdd scatter_S50000_S800000x1_S800000_n_0_0_1 (fun _ => (0 : EReal))
          (broadcastInDim S800000x1 ![0] bcast_S800000_S800000x1_0 x) (fun _ => (1 : EReal)) := by
  have e0 : val_main_v11 (F := Ideal) = fun _ => (0 : EReal) := funext fun _ => Ideal.ofBits_zero_f32
  have e1 : val_main_v10 (F := Ideal) = fun _ => (1 : EReal) := funext fun _ => one_f32
  unfold val_main_v13
  rw [e0, e1]
  rfl

theorem numel_edges : S800000.numel = 800000 := by
  unfold Shape.numel
  rw [Fin.prod_univ_one]
  rfl

/-- The count column at a row is the count at that node. -/
theorem degF_apply (x : IVec S800000 32) (r : Fin 50000) :
    Glue.degF (F := Ideal) x (ix2 r (0 : Fin 1)) = (((Glue.degI x (ix1 r)).toInt : ℝ) : EReal) := by
  unfold Glue.degF
  rw [broadcastInDim_apply _ bcast_S50000_S50000x1_0 _ (ix2 r (0 : Fin 1)) (ix1 r) (fun a => match a with
    | ⟨0, _⟩ => by show r.val = if (50000 : Nat) = 1 then 0 else r.val; rw [if_neg (by decide)])]
  rfl

/-- The integer count, with its zero operand and its unit updates spelt as constant functions. -/
theorem degI_eq (x : IVec S800000 32)
    (hx : Glue.wrapIdx (Glue.clip0 x) = broadcastInDim S800000x1 ![0] bcast_S800000_S800000x1_0 x) :
    Glue.degI x = Host.scatter scatter_S50000_S800000x1_S800000_n_0_0_1 IntOp.addi (fun _ => (0 : BitVec 32))
      (broadcastInDim S800000x1 ![0] bcast_S800000_S800000x1_0 x) (fun _ => (1 : BitVec 32)) := by
  have hA : (broadcastInDim S50000 ![] bcast_S_S50000 (constantI S_ 32 0#32) : IVec S50000 32) = fun _ => (0 : BitVec 32) := rfl
  have hB : (broadcastInDim S800000 ![] bcast_S_S800000 (constantI S_ 32 1#32) : IVec S800000 32) = fun _ => (1 : BitVec 32) := rfl
  unfold Glue.degI
  rw [hx, hA, hB]

theorem twice_edges_lt : 2 * S800000.numel < 2 ^ 32 := by rw [numel_edges]; norm_num

/-- The integer count read signed, as a float, is the float count. -/
theorem count_cast (idx : IVec S800000x1 32) (i : S50000.Idx) :
    (((Host.scatter scatter_S50000_S800000x1_S800000_n_0_0_1 IntOp.addi (fun _ => (0 : BitVec 32)) idx
        (fun _ => (1 : BitVec 32)) i).toInt : ℝ) : EReal)
      = Ideal.hostScatterAdd scatter_S50000_S800000x1_S800000_n_0_0_1 (fun _ => (0 : EReal)) idx (fun _ => (1 : EReal)) i :=
  ScatterCount.sitofp_count_eq_hostScatterAdd_ones scatter_S50000_S800000x1_S800000_n_0_0_1 idx twice_edges_lt i

/-- The edge count: the integer scatter-add of ones converted to a float is the reference's float scatter-add
    of ones, once the clipped and wrapped index column is the array's own column. -/
theorem degF_eq (x : IVec S800000 32)
    (hx : Glue.wrapIdx (Glue.clip0 x) = broadcastInDim S800000x1 ![0] bcast_S800000_S800000x1_0 x) (r : Fin 50000) :
    Glue.degF (F := Ideal) x (ix2 r (0 : Fin 1)) = val_main_v13 (F := Ideal) x (ix1 r) := by
  rw [degF_apply, degI_eq x hx]
  exact (count_cast _ _).trans (congrFun (v13_eq x) (ix1 r)).symm

/-- The same for the other direction's count. -/
theorem degF_eq' (x : IVec S800000 32)
    (hx : Glue.wrapIdx (Glue.clip0 x) = broadcastInDim S800000x1 ![0] bcast_S800000_S800000x1_0 x) (r : Fin 50000) :
    Glue.degF (F := Ideal) x (ix2 r (0 : Fin 1)) = val_main_v36 (F := Ideal) x (ix1 r) :=
  (degF_eq x hx r).trans rfl

/-- Multiplying by the guarded reciprocal is the reference's guarded quotient: where the count is positive,
    s * (1 / max(d, 1)) = s / max(d, 1) since max(d, 1) is not zero; elsewhere both are zero. -/
theorem mean_law (s d : EReal) :
    s * (Scalar.select (FloatOps.cmpf (F := Ideal) (φ := .f32) .ogt d (FloatOps.ofBits .f32 0x00000000#32))
      (FloatOps.hostDivf (F := Ideal) (φ := .f32) (FloatOps.ofBits .f32 0x3F800000#32)
        (FloatOps.maximumf (F := Ideal) (φ := .f32) d (FloatOps.ofBits .f32 0x3F800000#32)))
      (FloatOps.ofBits (F := Ideal) .f32 0x00000000#32)) = refMean s d := by
  unfold refMean
  simp only [Ideal.ofBits_def, Ideal.ofBits_zero_f32, one_f32, Ideal.hostDivf_def, Ideal.maximumf_def]
  have hm : max d 1 ≠ 0 := ne_of_gt (lt_of_lt_of_le zero_lt_one (le_max_right d 1))
  unfold Scalar.select
  split
  · unfold Ideal.div
    rw [if_neg hm, if_neg hm, one_mul]
  · exact mul_zero s

/-- The guarded reciprocal column at a row. -/
theorem invDeg_apply (x : IVec S800000 32) (r : Fin 50000) :
    Glue.invDeg (F := Ideal) x (ix2 r (0 : Fin 1))
      = Scalar.select (FloatOps.cmpf (F := Ideal) (φ := .f32) .ogt (Glue.degF (F := Ideal) x (ix2 r (0 : Fin 1))) (FloatOps.ofBits .f32 0x00000000#32))
          (FloatOps.hostDivf (F := Ideal) (φ := .f32) (FloatOps.ofBits .f32 0x3F800000#32)
            (FloatOps.maximumf (F := Ideal) (φ := .f32) (Glue.degF (F := Ideal) x (ix2 r (0 : Fin 1))) (FloatOps.ofBits .f32 0x3F800000#32)))
          (FloatOps.ofBits (F := Ideal) .f32 0x00000000#32) := rfl

/-- The transposed weight at (k, c) is the weight at (c, k). -/
theorem wT_apply (W : FVec Ideal S128x384 .f32) (k : Fin 384) (c : Fin 128) :
    Glue.wT (F := Ideal) W (ix2 k c) = W (ix2 c k) := by
  unfold Glue.wT
  show transpose S384x128 [1, 0] W transposes_S128x384_S384x128_1_0 (ix2 k c) = _
  exact transpose_apply [1, 0] W transposes_S128x384_S384x128_1_0 (ix2 k c) (ix2 c k) (fun b => match b with
    | ⟨0, _⟩ => rfl
    | ⟨1, _⟩ => rfl)

/-- The bias row at column c is the bias at c. -/
theorem bRow_apply (b : FVec Ideal S128 .f32) (c : Fin 128) :
    Glue.bRow (F := Ideal) b (ix2 (0 : Fin 1) c) = b (ix1 c) :=
  broadcastInDim_apply _ bcast_S128_S1x128_1 b (ix2 (0 : Fin 1) c) (ix1 c) (fun a => match a with
    | ⟨0, _⟩ => by show c.val = if (128 : Nat) = 1 then 0 else c.val; rw [if_neg (by decide)])

/-- Entry (r, c): the three contractions over the kernel's host-side arrays plus the bias are the
    reference's result there. The feature term is the same sum; in each neighbour term the kernel's
    'sum times guarded reciprocal' is the reference's guarded mean (the sums are the same arrays, the
    counts the same numbers); only the grouping of the 384 products differs. -/
theorem ref_entry (feat : FVec Ideal S50000x128 .f32) (src dst : IVec S800000 32) (W : FVec Ideal S128x384 .f32)
    (b : FVec Ideal S128 .f32)
    (hs : Glue.wrapIdx (Glue.clip0 src) = broadcastInDim S800000x1 ![0] bcast_S800000_S800000x1_0 src)
    (hd : Glue.wrapIdx (Glue.clip0 dst) = broadcastInDim S800000x1 ![0] bcast_S800000_S800000x1_0 dst)
    (r : Fin 50000) (c : Fin 128) :
    ((∑ k : Fin 128, (feat (ix2 r k) : EReal) * (Glue.wT (F := Ideal) W (ix2 (⟨k.val, by omega⟩ : Fin 384) c) : EReal))
        + ∑ k : Fin 128, ((Glue.segSum (F := Ideal) feat src dst (ix2 r k) : EReal)
            * (Glue.invDeg (F := Ideal) dst (ix2 r (0 : Fin 1)) : EReal))
            * (Glue.wT (F := Ideal) W (ix2 (⟨128 + k.val, by omega⟩ : Fin 384) c) : EReal))
      + (∑ k : Fin 128, ((Glue.segSum (F := Ideal) feat dst src (ix2 r k) : EReal)
            * (Glue.invDeg (F := Ideal) src (ix2 r (0 : Fin 1)) : EReal))
            * (Glue.wT (F := Ideal) W (ix2 (⟨256 + k.val, by omega⟩ : Fin 384) c) : EReal))
      + (Glue.bRow (F := Ideal) b (ix2 (0 : Fin 1) c) : EReal)
    = val_main_v51 (F := Ideal) feat src dst W b (ix2 r c) := by
  rw [result_apply, bRow_apply]
  simp only [wT_apply]
  refine congrArg₂ (· + ·) (congrArg₂ (· + ·) (congrArg₂ (· + ·) rfl ?_) ?_) rfl
  · refine Finset.sum_congr rfl fun k _ => ?_
    rw [fwd_mean_apply, invDeg_apply, mean_law, segSum_fwd, degF_eq dst hd r]
  · refine Finset.sum_congr rfl fun k _ => ?_
    rw [bwd_mean_apply, invDeg_apply, mean_law, segSum_bwd, degF_eq' src hs r]

end Cert.Bridge

end
-- ==== Proof.IndexDomain.lean ====
/-
  The edge arrays under the precondition: every entry of src and of dst is a non-negative word, so
  clipping an index array below at zero and wrapping its negative entries both leave it as it is.
-/
import proofs.«430354_j83408264888595_3_alg».proof.Pre_finite_inputs
import proofs.«430354_j83408264888595_3_alg».proof.Proof.KHost
import Idealize.ShloMosaic.PureOps.Ideal
import Idealize.ShloMosaic.Lib.ReduceAll
import Idealize.ShloMosaic.Lib.StableHlo.Predicate

noncomputable section

namespace Cert.IndexDomain

open Idealize.ShloMosaic Cert.KernelIdeal Cert.KernelIdeal.Gen

/-- A 32-bit word that is at least zero as a signed word is not below zero. -/
private theorem slt_zero_of_sle {v : BitVec 32} (h : (0#32).sle v = true) : v.slt 0#32 = false := by
  rw [Bool.eq_false_iff]
  intro h'
  rw [BitVec.sle_iff_toInt_le] at h
  rw [BitVec.slt_iff_toInt_lt] at h'
  omega

/-- An "all entries are at least zero" reduction that came out 1: every entry is at least zero as a signed word. -/
private theorem all_sge_zero [Cert.Pre_finite_inputs.Facts] (a : IVec Cert.Pre_finite_inputs.S800000 32)
    (init : IVec Cert.Pre_finite_inputs.S_ 1) (j : Cert.Pre_finite_inputs.S_.Idx)
    (h : Host.reduce IntOp.andi
          (cmpi .sge a (broadcastInDim Cert.Pre_finite_inputs.S800000 ![] Cert.Pre_finite_inputs.Facts.bcast_S_S800000
            (constantI Cert.Pre_finite_inputs.S_ 32 0#32)))
          init Cert.Pre_finite_inputs.Facts.reducesTo_S800000_S_d0 Cert.Pre_finite_inputs.Facts.h_S_ j = 1#1)
    (e : Cert.Pre_finite_inputs.S800000.Idx) : (0#32).sle (a e) = true := by
  haveI : Subsingleton Cert.Pre_finite_inputs.S_.Idx := ⟨fun a b => funext fun d => d.elim0⟩
  have hc := Host.reduce_andi_all _ _ _ _ j h e
  exact (StableHlo.Predicate.ofBool_eq_one_iff _).1 hc

/-- The precondition's last two conjuncts, decoded: every entry of the two edge arrays is ≥ 0 as a signed word. -/
theorem idx_nonneg_of_pre [Cert.Pre_finite_inputs.Facts]
    (a0 : FVec Ideal Cert.Pre_finite_inputs.S50000x128 .f32) (a1 a2 : IVec Cert.Pre_finite_inputs.S800000 32)
    (a3 : FVec Ideal Cert.Pre_finite_inputs.S128x384 .f32) (a4 : FVec Ideal Cert.Pre_finite_inputs.S128 .f32)
    (h : Cert.Pre_finite_inputs.fn (F := Ideal) a0 a1 a2 a3 a4 = fun _ => 1#1) :
    (∀ e, (0#32).sle (a1 e) = true) ∧ (∀ e, (0#32).sle (a2 e) = true) := by
  have h0 := congrFun h (fun a => a.elim0)
  dsimp only [Cert.Pre_finite_inputs.fn, Cert.Pre_finite_inputs.fn_part1] at h0
  obtain ⟨h1, h2⟩ := IntOp.andi_eq_one.1 h0
  obtain ⟨_, h3⟩ := IntOp.andi_eq_one.1 h1
  exact ⟨all_sge_zero a1 _ _ h3, all_sge_zero a2 _ _ h2⟩

/-- On non-negative entries the clip below at zero followed by the wrap of negative entries is the identity:
    the index column the count scatters by is the array's own column. -/
theorem wrapIdx_clip0 (x : IVec Cert.KernelIdeal.S800000 32) (hx : ∀ e, (0#32).sle (x e) = true) :
    Cert.KernelIdeal.Glue.wrapIdx (Cert.KernelIdeal.Glue.clip0 x)
      = broadcastInDim Cert.KernelIdeal.S800000x1 ![0] bcast_S800000_S800000x1_0 x := by
  unfold Cert.KernelIdeal.Glue.wrapIdx
  refine congrArg _ (funext fun e => ?_)
  have hs := slt_zero_of_sle (hx e)
  have hc : Cert.KernelIdeal.Glue.clip0 x e = x e := by
    show IntOp.maxsi (0#32) (x e) = x e
    unfold IntOp.maxsi
    rw [hs]
    rfl
  show Scalar.select (IntOp.cmpi .slt (Cert.KernelIdeal.Glue.clip0 x e) (0#32)) _ (Cert.KernelIdeal.Glue.clip0 x e) = x e
  rw [hc]
  show (if BitVec.ofBool ((x e).slt 0#32) = 1 then _ else x e) = x e
  rw [hs]
  rfl

end Cert.IndexDomain

end
-- ==== Proof.lean ====
/-
  A directed two-way neighbourhood mean followed by one linear layer, over a graph of 50000 nodes and
  800000 edges: the kernel against the reference.

  Both programs compute, for each node r and output column c,
      sum_k feat[r,k] W[c,k] + sum_k fwd[r,k] W[c,128+k] + sum_k bwd[r,k] W[c,256+k] + b[c],
  where fwd[r,·] is the mean of the feature rows of r's in-neighbours (zero when it has none) and bwd the
  same for the reversed graph. The reference concatenates the three 128-wide pieces and contracts once
  over 384; the kernel contracts the three pieces separately against the three row bands of the transposed
  weight and adds them: the same 384 products grouped differently. The reference divides each segment sum
  by the node's edge count; the kernel multiplies it by the precomputed reciprocal of the count, which on
  the extended reals is the same number because max(count, 1) is never zero. The reference counts edges
  by a float scatter-add of ones, the kernel by an integer scatter-add of ones (after clipping the index
  below at zero) converted to a float: the same count wherever the edge arrays are non-negative, which
  the precondition states (a negative id would be dropped by the reference's segment sum and counted at
  node 0 by the kernel's clipped count). The narrow float format the kernel passes through is the identity
  on the extended reals.

  The three frames are the generated ones (the reference's is its run with the result dropped); the
  idealization rewrote nothing, so that conjunct is trivial; the equivalence sets the kernel's run, with
  its result array named entry by entry, beside the reference's run read back.
-/
import proofs.«430354_j83408264888595_3_alg».proof.Defs
import proofs.«430354_j83408264888595_3_alg».proof.Proof.Gen.Kernel
import proofs.«430354_j83408264888595_3_alg».proof.Proof.Gen.Kernel.Skeleton
import proofs.«430354_j83408264888595_3_alg».proof.Proof.Gen.Kernel.Launch
import proofs.«430354_j83408264888595_3_alg».proof.Proof.Gen.Kernel.Points
import proofs.«430354_j83408264888595_3_alg».proof.Proof.Gen.Kernel.Frame
import proofs.«430354_j83408264888595_3_alg».proof.Proof.Gen.KernelIdeal
import proofs.«430354_j83408264888595_3_alg».proof.Proof.Gen.KernelIdeal.Skeleton
import proofs.«430354_j83408264888595_3_alg».proof.Proof.Gen.KernelIdeal.Launch
import proofs.«430354_j83408264888595_3_alg».proof.Proof.Gen.KernelIdeal.Points
import proofs.«430354_j83408264888595_3_alg».proof.Proof.Gen.KernelIdeal.Frame
import proofs.«430354_j83408264888595_3_alg».proof.Proof.Gen.ReferenceIdeal
import proofs.«430354_j83408264888595_3_alg».proof.Proof.Gen.Pre_finite_inputs
import proofs.«430354_j83408264888595_3_alg».proof.Proof.Gen.KernelIdeal.Value
import proofs.«430354_j83408264888595_3_alg».proof.Proof.RefRead
import proofs.«430354_j83408264888595_3_alg».proof.Proof.Blocks
import proofs.«430354_j83408264888595_3_alg».proof.Proof.Bridge
import proofs.«430354_j83408264888595_3_alg».proof.Proof.IndexDomain
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two results are one array: entry by entry the kernel's three contractions plus the bias are the
    reference's single contraction plus the bias, under the precondition's non-negative edge ids. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨hs, hd⟩ := Cert.IndexDomain.idx_nonneg_of_pre _ _ _ _ _ (hpre c)
  rw [Cert.ReferenceIdeal.ReadP.val_main_v51_eq, (hagree c).1, (hagree c).2.1, (hagree c).2.2.1, (hagree c).2.2.2.1,
    (hagree c).2.2.2.2]
  rw [Cert.KernelIdeal.Gen.V_main_arg0, Cert.KernelIdeal.Glue.V_fsum, Cert.KernelIdeal.Glue.V_finv,
    Cert.KernelIdeal.Glue.V_bsum, Cert.KernelIdeal.Glue.V_binv, Cert.KernelIdeal.Glue.V_wt, Cert.KernelIdeal.Glue.V_brow]
  funext i
  obtain ⟨r, q, rfl⟩ : ∃ (r : Fin 50000) (q : Fin 128), i = ix2 r q := ⟨i 0, i 1, eq_ix2 i⟩
  exact (Cert.Bridge.ref_entry _ _ _ _ _ (Cert.IndexDomain.wrapIdx_clip0 _ hs) (Cert.IndexDomain.wrapIdx_clip0 _ hd) r q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
